-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S256x512 .f32) (main_arg7 : FVec F S256 .f32) (main_arg8 : FVec F S512x256 .f32) (main_arg9 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_v33

def fn {F : FTy → Type} [FloatOps F] (main_arg0 : FVec F S8192x512 .f32) (main_arg1 : FVec F S8192x8192 .f32) (main_arg2 : IVec S4096 32) (main_arg3 : IVec S4096 32) (main_arg4 : FVec F S256x512 .f32) (main_arg5 : FVec F S256 .f32) (main_arg6 : FVec F S256x512 .f32) (main_arg7 : FVec F S256 .f32) (main_arg8 : FVec F S512x256 .f32) (main_arg9 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1x256 : Shape := ⟨2, ![1, 256]⟩
abbrev S1x512 : Shape := ⟨2, ![1, 512]⟩
abbrev S8192x1 : Shape := ⟨2, ![8192, 1]⟩
abbrev S1024x512 : Shape := ⟨2, ![1024, 512]⟩
abbrev S1024x1 : Shape := ⟨2, ![1024, 1]⟩
abbrev S1024x256 : Shape := ⟨2, ![1024, 256]⟩
abbrev S1024 : Shape := ⟨1, ![1024]⟩
abbrev S8192 : Shape := ⟨1, ![8192]⟩
abbrev S_ : Shape := ⟨0, ![]⟩
abbrev S4096x1 : Shape := ⟨2, ![4096, 1]⟩

abbrev nBuf : Space → Nat
  | .hbm => 38
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S4096, .i32⟩
  | .hbm, ⟨3, _⟩ => ⟨S4096, .i32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S512x256, .f32⟩
  | .hbm, ⟨11, _⟩ => ⟨S256x512, .f32⟩
  | .hbm, ⟨12, _⟩ => ⟨S1x256, .f32⟩
  | .hbm, ⟨13, _⟩ => ⟨S1x512, .f32⟩
  | .hbm, ⟨14, _⟩ => ⟨S8192x1, .f32⟩
  | .hbm, ⟨15, _⟩ => ⟨S8192, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S256x512, .f32⟩
  | .local _ .vmem, ⟨5, _⟩ => ⟨S1x512, .f32⟩
  | .local _ .vmem, ⟨6, _⟩ => ⟨S1024x1, .f32⟩
  | .local _ .vmem, ⟨7, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x512_S512x256_1_0 : S256x512.Transposes [1, 0] S512x256
  transposes_S512x256_S256x512_1_0 : S512x256.Transposes [1, 0] S256x512
  shapeCasts_S256_S1x256 : S256.ShapeCasts S1x256
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  h_S_ : 0 < S_.numel
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  gather_S8192_S4096x1_S4096_n_0_n_n_0_1_1_wf : GatherDims.WF S8192 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S8192x256 : Shape := ⟨2, ![8192, 256]⟩
abbrev S1x256 : Shape := ⟨2, ![1, 256]⟩
abbrev S_ : Shape := ⟨0, ![]⟩
abbrev S1x512 : Shape := ⟨2, ![1, 512]⟩
abbrev S4096x1 : Shape := ⟨2, ![4096, 1]⟩
abbrev S4096x512 : Shape := ⟨2, ![4096, 512]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S4096, .i32⟩
  | .hbm, ⟨3, _⟩ => ⟨S4096, .i32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S512x256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S512x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S256x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096x512, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x512, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096, .f32⟩
  | .hbm, ⟨80, _⟩ => ⟨S4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S4096_d1 : S4096x512.ReducesTo [1] S4096
  h_S_ : 0 < S_.numel
  reducesTo_S4096_S_d0 : S4096.ReducesTo [0] S_
  dot_S8192x512_S512x256_S8192x256_1_0_0_1_n_n_wf : DotDims.WF S8192x512 S512x256 S8192x256 [1] [0] [0] [1] [] []
  dot_S8192x256_S256x512_S8192x512_1_0_0_1_n_n_wf : DotDims.WF S8192x256 S256x512 S8192x512 [1] [0] [0] [1] [] []
  gather_S8192x512_S4096x1_S4096x512_1_0_n_n_0_1_1512_wf : GatherDims.WF S8192x512 S4096x1 S4096x512 [1] [0] [] [0] [] 1 ![1, 512]

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf

class Facts : Prop extends Facts₀ where

variable [Facts]
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.Spec.lean ====
/-
  One row's reconstruction distance, as a function of the row and of the two dense layers.

  For a row x ∈ ℝ̄⁵¹² (extended reals), weights w1 ∈ ℝ̄^{256×512}, w2 ∈ ℝ̄^{512×256} and biases b1, b2:
    hidden x k = max (Σ_l x_l · w1_{k,l} + b1_k) 0          (the first dense layer and its rectifier),
    recon  x j = Σ_k hidden x k · w2_{j,k} + b2_j            (the second dense layer),
    rowDist x   = √ (Σ_j (x_j − recon x j)²)                  (the Euclidean distance of the row from its reconstruction).
  The result of both programs is this distance taken at the rows an index vector names: an index is read as a signed
  word, a negative one counts from the end (8192 is added), and the row actually read is that number clamped into
  0 … 8191. The mean of 4096 such distances is the first result, the 4096 distances of a second index vector the other.
-/
import Idealize.ShloMosaic.PureOps.Ideal
import Idealize.ShloMosaic.PureOps.Ideal.Laws
import Idealize.ShloMosaic.Lib.ValueIdx
import proofs.«177489_j386547056923_1_alg».proof.Proof.LibClamp

open scoped BigOperators

noncomputable section

namespace Cert.RowScore

open Idealize.ShloMosaic Idealize.ShloMosaic.ValueIdx Cert.LibClamp

/-- The rectified first layer at unit `k`. -/
def hidden (x : Fin 512 → EReal) (w1 : Fin 256 → Fin 512 → EReal) (b1 : Fin 256 → EReal) (k : Fin 256) : EReal :=
  max ((∑ l : Fin 512, x l * w1 k l) + b1 k) 0

/-- The second layer at column `j`: the row's reconstruction. -/
def recon (x : Fin 512 → EReal) (w1 : Fin 256 → Fin 512 → EReal) (b1 : Fin 256 → EReal)
    (w2 : Fin 512 → Fin 256 → EReal) (b2 : Fin 512 → EReal) (j : Fin 512) : EReal :=
  (∑ k : Fin 256, hidden x w1 b1 k * w2 j k) + b2 j

/-- The Euclidean distance of a row from its reconstruction. -/
def rowDist (x : Fin 512 → EReal) (w1 : Fin 256 → Fin 512 → EReal) (b1 : Fin 256 → EReal)
    (w2 : Fin 512 → Fin 256 → EReal) (b2 : Fin 512 → EReal) : EReal :=
  Ideal.sqrt (∑ j : Fin 512, (x j - recon x w1 b1 w2 b2 j) * (x j - recon x w1 b1 w2 b2 j))

/-- The distance of row `r` of the feature array, the layers given as the arrays the programs are launched with. -/
def score (X : FVec Ideal ⟨2, ![8192, 512]⟩ .f32) (W1 : FVec Ideal ⟨2, ![256, 512]⟩ .f32) (B1 : FVec Ideal ⟨1, ![256]⟩ .f32)
    (W2 : FVec Ideal ⟨2, ![512, 256]⟩ .f32) (B2 : FVec Ideal ⟨1, ![512]⟩ .f32) (r : Fin 8192) : EReal :=
  rowDist (fun l => X (ix2 r l)) (fun k l => W1 (ix2 k l)) (fun k => B1 (ix1 k)) (fun j k => W2 (ix2 j k)) (fun j => B2 (ix1 j))

/-- An index word as it is read: a negative one counts from the end of the 8192 rows. -/
def wrap (v : BitVec 32) : BitVec 32 := Scalar.select (IntOp.cmpi .slt v 0#32) (IntOp.addi v 8192#32) v

/-- The row an index word names: the wrapped word, read signed, clamped into the rows 0 … 8191. -/
def rowOf (v : BitVec 32) : Fin 8192 := clampTo 8192 (by decide) (wrap v)

/-- The distances at the rows an index vector names. -/
def scoresAt (X : FVec Ideal ⟨2, ![8192, 512]⟩ .f32) (W1 : FVec Ideal ⟨2, ![256, 512]⟩ .f32) (B1 : FVec Ideal ⟨1, ![256]⟩ .f32)
    (W2 : FVec Ideal ⟨2, ![512, 256]⟩ .f32) (B2 : FVec Ideal ⟨1, ![512]⟩ .f32) (idx : IVec ⟨1, ![4096]⟩ 32) :
    FVec Ideal ⟨1, ![4096]⟩ .f32 :=
  fun e => score X W1 B1 W2 B2 (rowOf (idx e))

/-- Summing a vector of 4096 entries over its one axis leaves a scalar. -/
theorem sum_shape : (⟨1, ![4096]⟩ : Shape).ReducesTo [0] ⟨0, ![]⟩ := by decide

/-- A scalar has one entry. -/
theorem scalar_numel : 0 < (⟨0, ![]⟩ : Shape).numel := by decide

/-- The mean of 4096 distances as both programs take it: their sum from zero, divided by 4096. -/
def meanOf (v : FVec Ideal ⟨1, ![4096]⟩ .f32) : FVec Ideal ⟨0, ![]⟩ .f32 :=
  Host.divf (F := Ideal)
    (Host.reduceAdd (F := Ideal) v (constant (F := Ideal) ⟨0, ![]⟩ .f32 0x00000000#32) sum_shape scalar_numel)
    (constant (F := Ideal) ⟨0, ![]⟩ .f32 0x45800000#32)

end Cert.RowScore

end
-- ==== Proof.KernelRow.lean ====
/-
  What the kernel's body computes on one block of 1024 rows, read at a row.

  The body takes a block x0 of 1024 feature rows and the four layer operands as it is handed them — the first layer's
  weights transposed (512 × 256), its bias as a 1 × 256 row, the second layer's weights transposed (256 × 512), its bias
  as a 1 × 512 row — and stores, for each row p of the block, the distance of that row from its reconstruction. At the
  extended reals a change of float format is the identity, a product into a zero accumulator is the plain sum of
  products over the contracted axis, a lane reduction is the sum over the lane axis, and a broadcast row reads its one
  row; so entry (p, 0) of the stored column is `rowDist` of row p, with the layers read through the operands' layout.
-/
import proofs.«177489_j386547056923_1_alg».proof.Proof.Gen.KernelIdeal.Skeleton
import proofs.«177489_j386547056923_1_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.RowValue

open Cert.KernelIdeal Cert.KernelIdeal.Gen Idealize.ShloMosaic Idealize.ShloMosaic.ValueIdx Cert.RowScore

/-! ## The two products, read at an entry -/

theorem lhs_dotA_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_dotA_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_dotA_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_dotA_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product into a zero accumulator, read at (p, c): the sum over the 512 contracted positions. -/
theorem dotA_apply (a : FVec Ideal S1024x512 .bf16) (b : FVec Ideal S512x256 .bf16) (p : Fin 1024) (c : Fin 256) :
    matmul dot_S1024x512_S512x256_S1024x256_1_0_0_1_n_n none a b (constant (F := Ideal) S1024x256 .f32 0x00000000#32) (ix2 p c)
      = ∑ l : Fin 512, a (ix2 p l) * b (ix2 l c) := by
  simp only [matmul]
  rw [Ideal.matmul_constant_zero_apply, ← Equiv.sum_comp (contrEquiv1 dot_S1024x512_S512x256_S1024x256_1_0_0_1_n_n 512 rfl rfl).symm]
  refine Finset.sum_congr rfl fun l _ => ?_
  have hl := contrEquiv1_symm_val dot_S1024x512_S512x256_S1024x256_1_0_0_1_n_n 512 rfl rfl l
  have el : dot_S1024x512_S512x256_S1024x256_1_0_0_1_n_n.lhsIdx (ix2 p c) ((contrEquiv1 dot_S1024x512_S512x256_S1024x256_1_0_0_1_n_n 512 rfl rfl).symm l) = ix2 p l := funext fun x => Fin.ext (by
    match x with
    | ⟨0, _⟩ => exact lhs_dotA_0 _ _
    | ⟨1, _⟩ => exact (lhs_dotA_1 _ _).trans hl)
  have er : dot_S1024x512_S512x256_S1024x256_1_0_0_1_n_n.rhsIdx (ix2 p c) ((contrEquiv1 dot_S1024x512_S512x256_S1024x256_1_0_0_1_n_n 512 rfl rfl).symm l) = ix2 l c := funext fun x => Fin.ext (by
    match x with
    | ⟨0, _⟩ => exact (rhs_dotA_0 _ _).trans hl
    | ⟨1, _⟩ => exact rhs_dotA_1 _ _)
  rw [el, er]

theorem lhs_dotB_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_dotB_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_dotB_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_dotB_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into a zero accumulator, read at (p, c): the sum over the 256 contracted positions. -/
theorem dotB_apply (a : FVec Ideal S1024x256 .bf16) (b : FVec Ideal S256x512 .bf16) (p : Fin 1024) (c : Fin 512) :
    matmul dot_S1024x256_S256x512_S1024x512_1_0_0_1_n_n none a b (constant (F := Ideal) S1024x512 .f32 0x00000000#32) (ix2 p c)
      = ∑ l : Fin 256, a (ix2 p l) * b (ix2 l c) := by
  simp only [matmul]
  rw [Ideal.matmul_constant_zero_apply, ← Equiv.sum_comp (contrEquiv1 dot_S1024x256_S256x512_S1024x512_1_0_0_1_n_n 256 rfl rfl).symm]
  refine Finset.sum_congr rfl fun l _ => ?_
  have hl := contrEquiv1_symm_val dot_S1024x256_S256x512_S1024x512_1_0_0_1_n_n 256 rfl rfl l
  have el : dot_S1024x256_S256x512_S1024x512_1_0_0_1_n_n.lhsIdx (ix2 p c) ((contrEquiv1 dot_S1024x256_S256x512_S1024x512_1_0_0_1_n_n 256 rfl rfl).symm l) = ix2 p l := funext fun x => Fin.ext (by
    match x with
    | ⟨0, _⟩ => exact lhs_dotB_0 _ _
    | ⟨1, _⟩ => exact (lhs_dotB_1 _ _).trans hl)
  have er : dot_S1024x256_S256x512_S1024x512_1_0_0_1_n_n.rhsIdx (ix2 p c) ((contrEquiv1 dot_S1024x256_S256x512_S1024x512_1_0_0_1_n_n 256 rfl rfl).symm l) = ix2 l c := funext fun x => Fin.ext (by
    match x with
    | ⟨0, _⟩ => exact (rhs_dotB_0 _ _).trans hl
    | ⟨1, _⟩ => exact rhs_dotB_1 _ _)
  rw [el, er]

/-! ## The bias rows, broadcast down the block -/

/-- The first bias row broadcast to the block reads its one row. -/
theorem biasA_apply (x2 : FVec Ideal S1x256 .f32) (p : Fin 1024) (k : Fin 256) :
    broadcastTo S1024x256 x2 broadcasts_S1x256_S1024x256 (ix2 p k) = x2 (ix2 (0 : Fin 1) k) := by
  exact broadcastTo_apply x2 broadcasts_S1x256_S1024x256 (ix2 p k) (ix2 (0 : Fin 1) k) (fun a => match a with
    | ⟨0, _⟩ => by show (0 : Nat) = if (1 : Nat) = 1 then 0 else p.val; rw [if_pos rfl]
    | ⟨1, _⟩ => by show k.val = if (256 : Nat) = 1 then 0 else k.val; rw [if_neg (by decide)])

/-- The second bias row likewise. -/
theorem biasB_apply (x4 : FVec Ideal S1x512 .f32) (p : Fin 1024) (j : Fin 512) :
    broadcastTo S1024x512 x4 broadcasts_S1x512_S1024x512 (ix2 p j) = x4 (ix2 (0 : Fin 1) j) := by
  exact broadcastTo_apply x4 broadcasts_S1x512_S1024x512 (ix2 p j) (ix2 (0 : Fin 1) j) (fun a => match a with
    | ⟨0, _⟩ => by show (0 : Nat) = if (1 : Nat) = 1 then 0 else p.val; rw [if_pos rfl]
    | ⟨1, _⟩ => by show j.val = if (512 : Nat) = 1 then 0 else j.val; rw [if_neg (by decide)])

/-! ## The lane sum kept as a column -/

/-- The sum over the 512 lanes, kept as a 1024 × 1 column, read at (p, 0): the sum of row p. -/
theorem rowsum_apply (v : FVec Ideal S1024x512 .f32) (hacc : (0x00000000#32 : BitVec 32) = 0x00000000#32) (p : Fin 1024) (q : Fin 1) :
    shapeCast S1024x1 (multiReduction .add [1] S1024 v 0x00000000#32 reduces_S1024x512_S1024 (.inl rfl) hacc) shapeCasts_S1024_S1024x1 (ix2 p q)
      = ∑ j : Fin 512, v (ix2 p j) := by
  refine (shapeCast_apply _ shapeCasts_S1024_S1024x1 (ix2 p q) (ix1 p) ?_).trans ?_
  · rw [Shape.rowMajor_val_one, Shape.rowMajor_val_two]
    show p.val = p.val * 1 + q.val
    have := q.isLt; omega
  · refine (Ideal.multiReduction_add_single v 0x00000000#32 reduces_S1024x512_S1024 (.inl rfl) hacc (ix1 p)).trans ?_
    refine Finset.sum_congr rfl fun j _ => congrArg v (funext fun a => Fin.ext (by
      match a with
      | ⟨0, _⟩ => rfl
      | ⟨1, _⟩ => rfl))

/-! ## The stored column -/

/-- The zero the rectifier compares with. -/
theorem scalar_zero : Scalar.ofBits (F := Ideal) .f32 0x00000000#32 = (0 : EReal) := Ideal.ofBits_zero_f32

/-- THE BODY AT A ROW: entry (p, 0) of the column the body stores is the distance of row p of the block from its
    reconstruction, the layers read through the operands as the body is handed them. -/
theorem pay_apply (x0 : FVec Ideal S1024x512 .f32) (x1 : FVec Ideal S512x256 .f32) (x2 : FVec Ideal S1x256 .f32)
    (x3 : FVec Ideal S256x512 .f32) (x4 : FVec Ideal S1x512 .f32) (p : Fin 1024) (q : Fin 1) :
    k0_pay1 (F := Ideal) x0 x1 x2 x3 x4 (ix2 p q)
      = rowDist (fun l => x0 (ix2 p l)) (fun k l => x1 (ix2 l k)) (fun k => x2 (ix2 (0 : Fin 1) k))
          (fun j k => x3 (ix2 k j)) (fun j => x4 (ix2 (0 : Fin 1) j)) := by
  unfold k0_pay1 rowDist
  dsimp only
  refine congrArg Ideal.sqrt ((rowsum_apply _ rfl p q).trans (Finset.sum_congr rfl fun j _ => ?_))
  simp only [mulf_apply, subf_apply, addf_apply, maximumf_apply, truncf_apply, broadcast_apply, dotA_apply, dotB_apply,
    biasA_apply, biasB_apply, shapeCast_self, RowScore.hidden, RowScore.recon, scalar_zero]

end Cert.KernelIdeal.RowValue

end
-- ==== Proof.KernelArray.lean ====
/-
  The score column the kernel's region leaves: every grid point writes back the distances of its 1024 rows.

  The grid has 8 points; point t is handed rows 1024·t … 1024·t + 1023 of the feature array and, whole, the first
  layer's weights transposed, its bias as a row, the second layer's weights transposed and its bias as a row (what the
  host lines before the region made of the launched arrays). By the body's value at a row, what point t writes back is
  block t of ONE column: entry (r, 0) is the distance of row r of the feature array from its reconstruction. The eight
  blocks tile the 8192 × 1 array, so the array ends holding that column.
-/
import proofs.«177489_j386547056923_1_alg».proof.Proof.Gen.KernelIdeal.Frame
import proofs.«177489_j386547056923_1_alg».proof.Proof.KernelRow
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.RowValue Cert.RowScore Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The column of distances, one per row of the feature array, over the arrays the program is launched with. -/
def scoreCol (c : Dev nD) : S8192x1.Idx → EReal := fun i =>
  score (m ((c : Thread nD τ).loc main_arg0)) (m ((c : Thread nD τ).loc main_arg6)) (m ((c : Thread nD τ).loc main_arg7))
    (m ((c : Thread nD τ).loc main_arg8)) (m ((c : Thread nD τ).loc main_arg9)) ⟨(i 0).val, (i 0).isLt⟩

/-! ## What the host lines before the region make of the layers -/

theorem V_w1t (c : Dev nD) : (V m c main_v0 : S512x256.Idx → EReal)
    = transpose S512x256 [1, 0] (m ((c : Thread nD τ).loc main_arg6)) transposes_S256x512_S512x256_1_0 := by
  show StableHlo.after hostOps0 (fun b => m (c, b)) (Proc.devRef .tc main_v0) = _
  after_results

theorem V_w2t (c : Dev nD) : (V m c main_v1 : S256x512.Idx → EReal)
    = transpose S256x512 [1, 0] (m ((c : Thread nD τ).loc main_arg8)) transposes_S512x256_S256x512_1_0 := by
  show StableHlo.after hostOps0 (fun b => m (c, b)) (Proc.devRef .tc main_v1) = _
  after_results

theorem V_b1row (c : Dev nD) : (V m c main_v2 : S1x256.Idx → EReal)
    = shapeCast S1x256 (m ((c : Thread nD τ).loc main_arg7)) shapeCasts_S256_S1x256 := by
  show StableHlo.after hostOps0 (fun b => m (c, b)) (Proc.devRef .tc main_v2) = _
  after_results
  rfl

theorem V_b2row (c : Dev nD) : (V m c main_v3 : S1x512.Idx → EReal)
    = shapeCast S1x512 (m ((c : Thread nD τ).loc main_arg9)) shapeCasts_S512_S1x512 := by
  show StableHlo.after hostOps0 (fun b => m (c, b)) (Proc.devRef .tc main_v3) = _
  after_results
  rfl

/-- The transposed first-layer weights at (l, k) are the weights at (k, l). -/
theorem w1t_apply (W : FVec Ideal S256x512 .f32) (l : Fin 512) (k : Fin 256) :
    transpose S512x256 [1, 0] W transposes_S256x512_S512x256_1_0 (ix2 l k) = W (ix2 k l) :=
  transpose_apply [1, 0] W transposes_S256x512_S512x256_1_0 (ix2 l k) (ix2 k l) (fun b => match b with
    | ⟨0, _⟩ => rfl
    | ⟨1, _⟩ => rfl)

/-- The transposed second-layer weights at (k, j) are the weights at (j, k). -/
theorem w2t_apply (W : FVec Ideal S512x256 .f32) (k : Fin 256) (j : Fin 512) :
    transpose S256x512 [1, 0] W transposes_S512x256_S256x512_1_0 (ix2 k j) = W (ix2 j k) :=
  transpose_apply [1, 0] W transposes_S512x256_S256x512_1_0 (ix2 k j) (ix2 j k) (fun b => match b with
    | ⟨0, _⟩ => rfl
    | ⟨1, _⟩ => rfl)

/-- A bias viewed as a one-row matrix reads, at (0, k), its entry k. -/
theorem b1row_apply (B : FVec Ideal S256 .f32) (k : Fin 256) :
    shapeCast S1x256 B shapeCasts_S256_S1x256 (ix2 (0 : Fin 1) k) = B (ix1 k) :=
  shapeCast_apply B shapeCasts_S256_S1x256 (ix2 (0 : Fin 1) k) (ix1 k) (by
    rw [Shape.rowMajor_val_one, Shape.rowMajor_val_two]
    show k.val = 0 * 256 + k.val
    omega)

theorem b2row_apply (B : FVec Ideal S512 .f32) (j : Fin 512) :
    shapeCast S1x512 B shapeCasts_S512_S1x512 (ix2 (0 : Fin 1) j) = B (ix1 j) :=
  shapeCast_apply B shapeCasts_S512_S1x512 (ix2 (0 : Fin 1) j) (ix1 j) (by
    rw [Shape.rowMajor_val_one, Shape.rowMajor_val_two]
    show j.val = 0 * 512 + j.val
    omega)

/-! ## The windows' blocks -/

/-- The printed index maps over the 8 grid points: the feature window and the result window move one block a point
    down the rows, the four layer windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point t is rows 1024·t … 1024·t + 1023 of the feature array. -/
theorem xblk_apply (c : Dev nD) (t : Fin cfg0.N) (x : S1024x512.Idx) (k : S8192x512.Idx)
    (hk0 : (k 0).val = t.val * 1024 + (x 0).val) (hk1 : (k 1).val = (x 1).val) :
    (iblk m c 0 t : Vec Ideal S1024x512 .f32) x = (m ((c : Thread nD τ).loc main_arg0) : S8192x512.Idx → EReal) k := by
  obtain ⟨e0, e1, -⟩ := idx_facts t
  unfold iblk
  rw [View.read_apply]
  refine (congrFun (V_main_arg0 m c) _).trans (congrArg _ ?_)
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

/-- Each layer window's one block is its whole array. -/
theorem w1blk_apply (c : Dev nD) (t : Fin cfg0.N) (x : S512x256.Idx) :
    (iblk m c 1 t : Vec Ideal S512x256 .f32) x = (V m c main_v0 : S512x256.Idx → EReal) x := by
  obtain ⟨-, -, e0, e1, -⟩ := idx_facts t
  unfold iblk
  rw [View.read_apply]
  refine congrArg (V m c main_v0) (funext fun a => Fin.ext ?_)
  match a with
  | ⟨0, _⟩ => show win0_1.index t 0 * 512 + 1 * (x 0).val = (x 0).val; rw [e0]; omega
  | ⟨1, _⟩ => show win0_1.index t 1 * 256 + 1 * (x 1).val = (x 1).val; rw [e1]; omega

theorem b1blk_apply (c : Dev nD) (t : Fin cfg0.N) (x : S1x256.Idx) :
    (iblk m c 2 t : Vec Ideal S1x256 .f32) x = (V m c main_v2 : S1x256.Idx → EReal) x := by
  obtain ⟨-, -, -, -, e0, e1, -⟩ := idx_facts t
  unfold iblk
  rw [View.read_apply]
  refine congrArg (V m c main_v2) (funext fun a => Fin.ext ?_)
  match a with
  | ⟨0, _⟩ => show win0_2.index t 0 * 1 + 1 * (x 0).val = (x 0).val; rw [e0]; omega
  | ⟨1, _⟩ => show win0_2.index t 1 * 256 + 1 * (x 1).val = (x 1).val; rw [e1]; omega

theorem w2blk_apply (c : Dev nD) (t : Fin cfg0.N) (x : S256x512.Idx) :
    (iblk m c 3 t : Vec Ideal S256x512 .f32) x = (V m c main_v1 : S256x512.Idx → EReal) x := by
  obtain ⟨-, -, -, -, -, -, e0, e1, -⟩ := idx_facts t
  unfold iblk
  rw [View.read_apply]
  refine congrArg (V m c main_v1) (funext fun a => Fin.ext ?_)
  match a with
  | ⟨0, _⟩ => show win0_3.index t 0 * 256 + 1 * (x 0).val = (x 0).val; rw [e0]; omega
  | ⟨1, _⟩ => show win0_3.index t 1 * 512 + 1 * (x 1).val = (x 1).val; rw [e1]; omega

theorem b2blk_apply (c : Dev nD) (t : Fin cfg0.N) (x : S1x512.Idx) :
    (iblk m c 4 t : Vec Ideal S1x512 .f32) x = (V m c main_v3 : S1x512.Idx → EReal) x := by
  obtain ⟨-, -, -, -, -, -, -, -, e0, e1, -⟩ := idx_facts t
  unfold iblk
  rw [View.read_apply]
  refine congrArg (V m c main_v3) (funext fun a => Fin.ext ?_)
  match a with
  | ⟨0, _⟩ => show win0_4.index t 0 * 1 + 1 * (x 0).val = (x 0).val; rw [e0]; omega
  | ⟨1, _⟩ => show win0_4.index t 1 * 512 + 1 * (x 1).val = (x 1).val; rw [e1]; omega

/-! ## What a point writes back -/

/-- Row p of point t's block is row 1024·t + p of the feature array. -/
def rowAt (t : Fin cfg0.N) (p : Fin 1024) : Fin 8192 :=
  ⟨t.val * 1024 + p.val, by have := t.isLt; have hN : cfg0.N = 8 := N_0; have := p.isLt; omega⟩

/-- The body's column at point t, row p: the distance of row 1024·t + p of the feature array, the layers the launched ones
    (the transposes and the one-row views the body is handed read back through). -/
theorem body_at (c : Dev nD) (t : Fin cfg0.N) (p : Fin 1024) (q : Fin 1) :
    k0_pay1 (F := Ideal) (iblk m c 0 t : Vec Ideal S1024x512 .f32) (iblk m c 1 t : Vec Ideal S512x256 .f32)
        (iblk m c 2 t : Vec Ideal S1x256 .f32) (iblk m c 3 t : Vec Ideal S256x512 .f32) (iblk m c 4 t : Vec Ideal S1x512 .f32) (ix2 p q)
      = score (m ((c : Thread nD τ).loc main_arg0)) (m ((c : Thread nD τ).loc main_arg6)) (m ((c : Thread nD τ).loc main_arg7))
          (m ((c : Thread nD τ).loc main_arg8)) (m ((c : Thread nD τ).loc main_arg9)) (rowAt t p) := by
  refine (pay_apply _ _ _ _ _ p q).trans ?_
  unfold score
  exact congr (congr (congr (congr (congrArg rowDist
      (funext fun l => xblk_apply m c t (ix2 p l) (ix2 (rowAt t p) l) rfl rfl))
      (funext fun k => funext fun l => (w1blk_apply m c t (ix2 l k)).trans ((congrFun (V_w1t m c) (ix2 l k)).trans (w1t_apply _ l k))))
      (funext fun k => (b1blk_apply m c t (ix2 (0 : Fin 1) k)).trans ((congrFun (V_b1row m c) (ix2 (0 : Fin 1) k)).trans (b1row_apply _ k))))
      (funext fun j => funext fun k => (w2blk_apply m c t (ix2 k j)).trans ((congrFun (V_w2t m c) (ix2 k j)).trans (w2t_apply _ k j))))
      (funext fun j => (b2blk_apply m c t (ix2 (0 : Fin 1) j)).trans ((congrFun (V_b2row m c) (ix2 (0 : Fin 1) j)).trans (b2row_apply _ j)))

/-- The same at any index y of the block and any index i of the score column on the row y is. -/
theorem col_at (c : Dev nD) (t : Fin cfg0.N) (y : S1024x1.Idx) (i : S8192x1.Idx) (hi : (i 0).val = t.val * 1024 + (y 0).val) :
    k0_pay1 (F := Ideal) (iblk m c 0 t : Vec Ideal S1024x512 .f32) (iblk m c 1 t : Vec Ideal S512x256 .f32)
        (iblk m c 2 t : Vec Ideal S1x256 .f32) (iblk m c 3 t : Vec Ideal S256x512 .f32) (iblk m c 4 t : Vec Ideal S1x512 .f32) y
      = scoreCol m c i := by
  obtain ⟨p, q, rfl⟩ : ∃ (p : Fin 1024) (q : Fin 1), y = ix2 p q := ⟨y 0, y 1, eq_ix2 y⟩
  refine (body_at m c t p q).trans ?_
  unfold scoreCol
  exact congrArg _ (Fin.ext hi.symm)

/-- WHAT POINT t WRITES BACK is block t of the score column. -/
theorem flushed_eq (c : Dev nD) (t : Fin cfg0.N) :
    (dats m 0 c).flushed 5 t = ((cfg0.win 5).blk t).view.read (Elt Ideal) (scoreCol m c) := by
  show (cfg0.win 5).cut (grid0.coords t) ((dats m 0 c).after 5 t) = _
  rw [after0_5]
  unfold out0_5
  rw [View.canon_unit_zero hz]
  simp only [View.ld_unit_zero (S := S1024x512) hz, View.ld_unit_zero (S := S512x256) hz, View.ld_unit_zero (S := S1x256) hz,
    View.ld_unit_zero (S := S256x512) hz, View.ld_unit_zero (S := S1x512) hz]
  obtain ⟨-, -, -, -, -, -, -, -, -, -, e0, -⟩ := idx_facts t
  funext y
  refine col_at m c t y (((cfg0.win 5).blk t).view.emb y) ?_
  show win0_5.index t 0 * 1024 + 1 * (y 0).val = t.val * 1024 + (y 0).val
  rw [e0]; omega

/-! ## The array after the region -/

/-- An index of the column is in point t's block iff its row is among the block's 1024 rows. -/
theorem mem_blk (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4).slice (win0_5.rect t)).set ↔ _
  rw [View.set_slice_whole, Rect.mem_set_unit]
  exact Iff.rfl

/-- Every row is in the block of the point its thousand-and-twenty-fourth names: the eight blocks tile the column. -/
theorem cover (i : S8192x1.Idx) : ∃ t : Fin cfg0.N, (cfg0.win 5).flush t = true ∧ i ∈ ((cfg0.win 5).blk t).view.set := by
  have h0 : (i 0).val < 8192 := (i 0).isLt
  have h1 : (i 1).val < 1 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 1 ≤ (i 1).val ∧ (i 1).val < win0_5.index t 1 * 1 + 1
    rw [e1]; omega

/-- THE ARRAY the region leaves: the score column. -/
theorem final_col (c : Dev nD) : (dats m 0 c).arrAt 5 cfg0.N = scoreCol m c :=
  (dats m 0 c).arrAt_eq_of_cover 5 (scoreCol m c) (fun t _ => flushed_eq m c t) cover

end Cert.KernelIdeal.ArrayValue

end
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«177489_j386547056923_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.KernelTail.lean ====
/-
  The kernel's two results: the host lines after the region read the score column at the rows the index vectors name.

  After the region the program views the 8192 × 1 score column as a vector, wraps each index vector (a negative index
  counts from the end), gathers the vector at the wrapped indices (the gather clamps a start index into 0 … 8191) and,
  for the first index vector, takes the mean of the 4096 gathered distances. So the second result is the distances at
  the rows the second index vector names, and the first the mean of those the first names.
-/
import proofs.«177489_j386547056923_1_alg».proof.Proof.KernelArray
import proofs.«177489_j386547056923_1_alg».proof.Proof.LibGatherScatter
import Idealize.ShloMosaic.Lib.StableHlo.Predicate

noncomputable section

open Idealize.ShloMosaic Idealize.ShloMosaic.TcCoe Idealize.SL.Sem
open Idealize.ShloMosaic.Pipeline (Dat)

namespace Cert.KernelIdeal.TailValue

open Cert.KernelIdeal Cert.KernelIdeal.Gen Cert.KernelIdeal.ArrayValue Cert.RowScore Idealize.ShloMosaic.ValueIdx Idealize.ShloMosaic.StableHlo
open Idealize.ShloMosaic.StableHlo.Predicate Cert.LibGatherScatter Cert.LibClamp

variable (m : (ℓ : Loc nD τ sig) → Buf (Elt Ideal) ℓ) (ρ : Dev nD → PrngReg)

/-- The score column viewed as a vector and gathered at an index vector's wrapped entries. -/
def gathered (col : S8192x1.Idx → EReal) (idx : IVec S4096 32) : S4096.Idx → EReal :=
  Host.gather gather_S8192_S4096x1_S4096_n_0_n_n_0_1_1 (shapeCast S8192 col shapeCasts_S8192x1_S8192)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 8192#32))) idx))

/-- Position e of the gather reads the column at the row the e-th index names. -/
theorem gathered_apply (col : S8192x1.Idx → EReal) (idx : IVec S4096 32) (e : Fin 4096) :
    gathered col idx (ix1 e) = col (ix2 (rowOf (idx (ix1 e))) (0 : Fin 1)) := by
  unfold gathered
  rw [gather_vec_apply (by decide : 0 < 8192) gather_S8192_S4096x1_S4096_n_0_n_n_0_1_1 rfl rfl rfl rfl, bcast_col1, ofFin_eq_ix1]
  refine (shapeCast_apply col shapeCasts_S8192x1_S8192 (ix1 _) (ix2 (rowOf (idx (ix1 e))) (0 : Fin 1)) ?_).trans rfl
  rw [Shape.rowMajor_val_one, Shape.rowMajor_val_two]
  show (rowOf (idx (ix1 e))).val * 1 + 0 = _
  rw [Nat.mul_one, Nat.add_zero]
  rfl

/-- Gathering the score column is taking the distances at the named rows. -/
theorem gathered_scoreCol (c : Dev nD) (idx : IVec S4096 32) :
    gathered (scoreCol m c) idx
      = scoresAt (m ((c : Thread nD τ).loc main_arg0)) (m ((c : Thread nD τ).loc main_arg6)) (m ((c : Thread nD τ).loc main_arg7))
          (m ((c : Thread nD τ).loc main_arg8)) (m ((c : Thread nD τ).loc main_arg9)) idx := by
  funext i
  obtain ⟨e, rfl⟩ : ∃ e : Fin 4096, i = ix1 e := ⟨i 0, eq_ix1 i⟩
  rw [gathered_apply]
  rfl

/-- After the region the result window's array is the score column, -/
theorem tail_col (c : Dev nD) :
    Pipeline.withArrays (cfgs 0).spec c (V0 m c) (fun w => (dats m 0 c).arrAt w (cfgs 0).N) (Proc.devRef .tc main_v4) = scoreCol m c :=
  (Pipeline.withArrays_arr spec0 launch0.win.arr_inj c _ _ 5).trans (final_col m c)

/-- and the index vectors are as launched. -/
theorem tail_idx2 (c : Dev nD) :
    Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem tail_idx3 (c : Dev nD) :
    Pipeline.withArrays (cfgs 0).spec c (V0 m c) (fun w => (dats m 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

set_option maxHeartbeats 4000000 in
/-- THE SECOND RESULT: the distances at the rows the second index vector names. -/
theorem result_test (c : Dev nD) :
    (Pipeline.afterTail₀ cfgs (dats m) 0 (V0 m) [hostOps1] c main_v21 : S4096.Idx → EReal)
      = scoresAt (m ((c : Thread nD τ).loc main_arg0)) (m ((c : Thread nD τ).loc main_arg6)) (m ((c : Thread nD τ).loc main_arg7))
          (m ((c : Thread nD τ).loc main_arg8)) (m ((c : Thread nD τ).loc main_arg9)) (m ((c : Thread nD τ).loc main_arg3)) := by
  unfold Pipeline.afterTail₀
  show StableHlo.after hostOps1 _ (Proc.devRef .tc main_v21) = _
  after_results_simp
  rw [tail_col, tail_idx3]
  exact gathered_scoreCol m c _

set_option maxHeartbeats 4000000 in
/-- THE FIRST RESULT: the mean of the distances at the rows the first index vector names. -/
theorem result_mean (c : Dev nD) :
    (Pipeline.afterTail₀ cfgs (dats m) 0 (V0 m) [hostOps1] c main_v14 : S_.Idx → EReal)
      = meanOf (scoresAt (m ((c : Thread nD τ).loc main_arg0)) (m ((c : Thread nD τ).loc main_arg6)) (m ((c : Thread nD τ).loc main_arg7))
          (m ((c : Thread nD τ).loc main_arg8)) (m ((c : Thread nD τ).loc main_arg9)) (m ((c : Thread nD τ).loc main_arg2))) := by
  unfold Pipeline.afterTail₀
  show StableHlo.after hostOps1 _ (Proc.devRef .tc main_v14) = _
  after_results_simp
  rw [tail_col, tail_idx2]
  exact congrArg meanOf (gathered_scoreCol m c _)

/-! ## The run, read -/

/-- A final state of the frame run holds every argument array as launched: the feature array is a window's input, the
    others no window's, and no host line writes one. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩

/-- THE KERNEL'S RUN: every weakly fair execution terminates with the first result at the mean of the distances the first
    index vector names, the second at the distances the second names, and the arguments unchanged. -/
theorem run_values : θ_run defs (onTc (τ := τ) (main (F := Ideal))) ⟨m, fun _ => 0, ρ⟩ fun r => ∀ c : Dev nD,
      r.2.mem ((c.tc : Thread nD τ).loc main_v14) = meanOf (scoresAt (m ((c.tc : Thread nD τ).loc main_arg0)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg2)))
      ∧ r.2.mem ((c.tc : Thread nD τ).loc main_v21) = scoresAt (m ((c.tc : Thread nD τ).loc main_arg0)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
      ⟨((h c).2 main_v14 (Pipeline.mem_restRefs_of main_v14 (by decide) (by decide))).trans (result_mean m c),
       ((h c).2 main_v21 (Pipeline.mem_restRefs_of main_v21 (by decide) (by decide))).trans (result_test m c),
       kept m r h c⟩)
    (run_main m ρ)

end Cert.KernelIdeal.TailValue

end
-- ==== Proof.RefValue.lean ====
/-
  The reference, read at one gathered row.

  The reference applies the two dense layers to the whole feature array, gathers the rows an index vector names from
  the features and from their reconstruction, and takes the Euclidean distance of each gathered pair. Read at one
  result position e: the gathered row is row r of the array, r the e-th index wrapped and clamped; row r of the
  reconstruction depends on row r of the features alone — entry (r, j) of a matrix product is the sum over the
  contracted axis of row r against column j, a bias row broadcast down the rows reads its entry j, the rectifier is
  entrywise — so the distance at e is the row distance of row r. Both index vectors go through the same stages.
-/
import proofs.«177489_j386547056923_1_alg».proof.Proof.Gen.ReferenceIdeal.Read
import proofs.«177489_j386547056923_1_alg».proof.Proof.Spec
import proofs.«177489_j386547056923_1_alg».proof.Proof.LibGatherScatter
import Idealize.ShloMosaic.Lib.StableHlo.Predicate

open scoped BigOperators

noncomputable section

namespace Cert.ReferenceIdeal.RowValue

open Cert.ReferenceIdeal Cert.ReferenceIdeal.Gen Cert.ReferenceIdeal.Read Idealize.ShloMosaic Idealize.ShloMosaic.ValueIdx
open Idealize.ShloMosaic.StableHlo.Predicate Cert.LibGatherScatter Cert.LibClamp Cert.RowScore

/-! ## The composed index maps, coordinate by coordinate -/

theorem ix_x_row (r : Fin 8192) (k : Fin 256) (l : Fin 512) : lidx_main_v7 (ix2 r k) l = ix2 r l :=
  funext fun a => Fin.ext (by match a with | ⟨0, _⟩ => rfl | ⟨1, _⟩ => rfl)
theorem ix_w1 (r : Fin 8192) (k : Fin 256) (l : Fin 512) : idx_main_v6 (ridx_main_v7 (ix2 r k) l) = ix2 k l :=
  funext fun a => Fin.ext (by match a with | ⟨0, _⟩ => rfl | ⟨1, _⟩ => rfl)
theorem ix_b1 (r : Fin 8192) (k : Fin 256) : idx_main_v8 (idx_main_v9 (ix2 r k)) = ix1 k :=
  funext fun a => Fin.ext (by match a with | ⟨0, _⟩ => rfl)
theorem ix_h_row (r : Fin 8192) (j : Fin 512) (k : Fin 256) : lidx_main_v13 (ix2 r j) k = ix2 r k :=
  funext fun a => Fin.ext (by match a with | ⟨0, _⟩ => rfl | ⟨1, _⟩ => rfl)
theorem ix_w2 (r : Fin 8192) (j : Fin 512) (k : Fin 256) : idx_main_v12 (ridx_main_v13 (ix2 r j) k) = ix2 j k :=
  funext fun a => Fin.ext (by match a with | ⟨0, _⟩ => rfl | ⟨1, _⟩ => rfl)
theorem ix_b2 (r : Fin 8192) (j : Fin 512) : idx_main_v14 (idx_main_v15 (ix2 r j)) = ix1 j :=
  funext fun a => Fin.ext (by match a with | ⟨0, _⟩ => rfl)
theorem ix_sum (e : Fin 4096) (j : Fin 512) : idx_main_v53 (ix1 e) j = ix2 e j :=
  funext fun a => Fin.ext (by match a with | ⟨0, _⟩ => rfl | ⟨1, _⟩ => rfl)

/-! ## The two layers at a row -/

/-- The rectified first layer of the whole array at (r, k) is the first layer of row r at unit k. -/
theorem hidden_at (x0 : FVec Ideal S8192x512 .f32) (x6 : FVec Ideal S256x512 .f32) (x7 : FVec Ideal S256 .f32) (r : Fin 8192) (k : Fin 256) :
    val_main_v11 (F := Ideal) x0 x6 x7 (ix2 r k)
      = RowScore.hidden (fun l => x0 (ix2 r l)) (fun k l => x6 (ix2 k l)) (fun k => x7 (ix1 k)) k := by
  rw [val_main_v11_apply, val_main_v10_apply, val_main_v7_apply, val_main_v9_apply, val_main_v8_apply,
    val_main_call1_v0_apply, val_main_call1_cst_apply]
  simp only [val_main_v6_apply, ix_x_row, ix_w1, ix_b1, Ideal.maximumf_def, Ideal.addf_def, Ideal.ofBits_def,
    Ideal.ofBits_zero_f32, RowScore.hidden]

/-- The second layer of the whole array at (r, j) is the reconstruction of row r at column j. -/
theorem recon_at (x0 : FVec Ideal S8192x512 .f32) (x6 : FVec Ideal S256x512 .f32) (x7 : FVec Ideal S256 .f32)
    (x8 : FVec Ideal S512x256 .f32) (x9 : FVec Ideal S512 .f32) (r : Fin 8192) (j : Fin 512) :
    val_main_v16 (F := Ideal) x0 x6 x7 x8 x9 (ix2 r j)
      = RowScore.recon (fun l => x0 (ix2 r l)) (fun k l => x6 (ix2 k l)) (fun k => x7 (ix1 k)) (fun j k => x8 (ix2 j k)) (fun j => x9 (ix1 j)) j := by
  rw [val_main_v16_apply, val_main_v13_apply, val_main_v15_apply, val_main_v14_apply]
  simp only [val_main_v12_apply, ix_h_row, ix_w2, ix_b2, hidden_at, Ideal.addf_def, RowScore.recon]

/-! ## The gathered rows -/

/-- The start-index column at position e is the e-th index, wrapped. -/
theorem startcol_at (x3 : IVec S4096 32) (e : Fin 4096) : val_main_v49 (F := Ideal) x3 (ixP e) = wrap (x3 (ix1 e)) := by
  unfold val_main_v49
  rw [bcast_col1, ofFin_eq_ix1]
  rfl

theorem startcol_at' (x3 : IVec S4096 32) (e : Fin 4096) : val_main_v42 (F := Ideal) x3 (ixP e) = wrap (x3 (ix1 e)) := by
  unfold val_main_v42
  rw [bcast_col1, ofFin_eq_ix1]
  rfl

/-- The gathered feature row. -/
theorem xrows_at (x0 : FVec Ideal S8192x512 .f32) (x3 : IVec S4096 32) (e : Fin 4096) (j : Fin 512) :
    val_main_v43 (F := Ideal) x0 x3 (ix2 e j) = x0 (ix2 (rowOf (x3 (ix1 e))) j) := by
  unfold val_main_v43
  rw [gather_rows_apply (by decide : 0 < 8192) gather_S8192x512_S4096x1_S4096x512_1_0_n_n_0_1_1512 rfl rfl rfl rfl rfl, startcol_at']
  rfl

/-- The gathered reconstruction row. -/
theorem yrows_at (x0 : FVec Ideal S8192x512 .f32) (x3 : IVec S4096 32) (x6 : FVec Ideal S256x512 .f32) (x7 : FVec Ideal S256 .f32)
    (x8 : FVec Ideal S512x256 .f32) (x9 : FVec Ideal S512 .f32) (e : Fin 4096) (j : Fin 512) :
    val_main_v50 (F := Ideal) x0 x3 x6 x7 x8 x9 (ix2 e j) = val_main_v16 (F := Ideal) x0 x6 x7 x8 x9 (ix2 (rowOf (x3 (ix1 e))) j) := by
  unfold val_main_v50
  rw [gather_rows_apply (by decide : 0 < 8192) gather_S8192x512_S4096x1_S4096x512_1_0_n_n_0_1_1512 rfl rfl rfl rfl rfl, startcol_at]
  rfl

/-! ## The distances -/

/-- THE REFERENCE AT A POSITION: the distance at result position e is the row distance of the row the e-th index names. -/
theorem dist_at (x0 : FVec Ideal S8192x512 .f32) (x3 : IVec S4096 32) (x6 : FVec Ideal S256x512 .f32) (x7 : FVec Ideal S256 .f32)
    (x8 : FVec Ideal S512x256 .f32) (x9 : FVec Ideal S512 .f32) (e : Fin 4096) :
    val_main_v54 (F := Ideal) x0 x3 x6 x7 x8 x9 (ix1 e) = score x0 x6 x7 x8 x9 (rowOf (x3 (ix1 e))) := by
  rw [val_main_v54_apply, val_main_v53_apply, val_main_cst_9_apply]
  simp only [val_main_v52_apply, val_main_v51_apply, ix_sum, xrows_at, yrows_at, recon_at, Ideal.hostUnary_sqrt_def,
    Ideal.mulf_def, Ideal.subf_def, Ideal.ofBits_def, Ideal.ofBits_zero_f32, zero_add, score, rowDist]

/-- The distances as a vector: what the second result holds. -/
theorem dists_eq (x0 : FVec Ideal S8192x512 .f32) (x3 : IVec S4096 32) (x6 : FVec Ideal S256x512 .f32) (x7 : FVec Ideal S256 .f32)
    (x8 : FVec Ideal S512x256 .f32) (x9 : FVec Ideal S512 .f32) :
    val_main_v54 (F := Ideal) x0 x3 x6 x7 x8 x9 = scoresAt x0 x6 x7 x8 x9 x3 := by
  funext i
  obtain ⟨e, rfl⟩ : ∃ e : Fin 4096, i = ix1 e := ⟨i 0, eq_ix1 i⟩
  exact dist_at x0 x3 x6 x7 x8 x9 e

/-- The first index vector goes through the same stages under other names. -/
theorem dists_eq' (x0 : FVec Ideal S8192x512 .f32) (x2 : IVec S4096 32) (x6 : FVec Ideal S256x512 .f32) (x7 : FVec Ideal S256 .f32)
    (x8 : FVec Ideal S512x256 .f32) (x9 : FVec Ideal S512 .f32) :
    val_main_v34 (F := Ideal) x0 x2 x6 x7 x8 x9 = scoresAt x0 x6 x7 x8 x9 x2 :=
  (show val_main_v34 (F := Ideal) x0 x2 x6 x7 x8 x9 = val_main_v54 (F := Ideal) x0 x2 x6 x7 x8 x9 from rfl).trans
    (dists_eq x0 x2 x6 x7 x8 x9)

/-- The first result: the mean of the distances the first index vector names. -/
theorem mean_eq (x0 : FVec Ideal S8192x512 .f32) (x2 : IVec S4096 32) (x6 : FVec Ideal S256x512 .f32) (x7 : FVec Ideal S256 .f32)
    (x8 : FVec Ideal S512x256 .f32) (x9 : FVec Ideal S512 .f32) :
    val_main_v36 (F := Ideal) x0 x2 x6 x7 x8 x9 = meanOf (scoresAt x0 x6 x7 x8 x9 x2) := by
  unfold val_main_v36 val_main_v35
  rw [dists_eq']
  rfl

end Cert.ReferenceIdeal.RowValue

end
-- ==== Proof.lean ====
/-
  The two programs compute, for 8192 feature rows and two dense layers, the Euclidean distance of each row from its
  reconstruction  x ↦ max(x·W1ᵀ + b1, 0)·W2ᵀ + b2,  read at the rows two index vectors name: the mean of 4096 such
  distances and 4096 distances. The kernel computes the distance of EVERY row, 1024 rows a grid point, and gathers the
  resulting column afterwards; the reference gathers the rows of the features and of their reconstruction first and
  takes the distances of the gathered rows. A row's distance depends on that row alone, and both programs wrap and
  clamp an index the same way, so over the extended reals — a change of float format the identity, every product and sum
  exact — the results are one function of the arguments: `meanOf (scoresAt … idx_train)` and `scoresAt … idx_test`
  (Proof/Spec.lean). No law of arithmetic beyond that is used, and the precondition is not opened.

  frame_Kernel and frame_KernelIdeal are the generated frames; frame_ReferenceIdeal is the reference's generated run with
  the results dropped; the ideal pass rewrote nothing, so preserves is trivial; algebraic pairs the kernel's run read at
  its results (Proof/KernelRow, KernelArray, KernelTail) with the reference's run read at a position (Proof/RefValue).
-/
import proofs.«177489_j386547056923_1_alg».proof.Defs
import proofs.«177489_j386547056923_1_alg».proof.Proof.Gen.Kernel
import proofs.«177489_j386547056923_1_alg».proof.Proof.Gen.Kernel.Skeleton
import proofs.«177489_j386547056923_1_alg».proof.Proof.Gen.Kernel.Launch
import proofs.«177489_j386547056923_1_alg».proof.Proof.Gen.Kernel.Points
import proofs.«177489_j386547056923_1_alg».proof.Proof.Gen.Kernel.Frame
import proofs.«177489_j386547056923_1_alg».proof.Proof.Gen.KernelIdeal
import proofs.«177489_j386547056923_1_alg».proof.Proof.Gen.KernelIdeal.Skeleton
import proofs.«177489_j386547056923_1_alg».proof.Proof.Gen.KernelIdeal.Launch
import proofs.«177489_j386547056923_1_alg».proof.Proof.Gen.KernelIdeal.Points
import proofs.«177489_j386547056923_1_alg».proof.Proof.Gen.KernelIdeal.Frame
import proofs.«177489_j386547056923_1_alg».proof.Proof.Gen.ReferenceIdeal
import proofs.«177489_j386547056923_1_alg».proof.Proof.Gen.Pre_finite_inputs
import proofs.«177489_j386547056923_1_alg».proof.Proof.Gen.ReferenceIdeal.Run
import proofs.«177489_j386547056923_1_alg».proof.Proof.Gen.ReferenceIdeal.Read
import proofs.«177489_j386547056923_1_alg».proof.Proof.KernelTail
import proofs.«177489_j386547056923_1_alg».proof.Proof.RefValue
import Idealize.ShloMosaic.Adequacy
import Idealize.ShloMosaic.Init

noncomputable section

namespace Cert.Proof

open Idealize.ShloMosaic Idealize.SL.Sem Cert.RowScore

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the mean of the distances at the rows the first index vector names and the distances at
    the rows the second names, of arguments that agree. -/
theorem algebraic : Cert.algebraic_KernelIdeal_ReferenceIdeal := by
  intro m ρ m' ρ' _ hagree
  refine ⟨fun c => meanOf (scoresAt (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2))),
    fun c => scoresAt (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg3)),
    Cert.KernelIdeal.TailValue.run_values m ρ, ?_⟩
  refine (θ_run Cert.ReferenceIdeal.defs _ _).mono (fun _ h c => ?_) (Cert.ReferenceIdeal.Value.run (F := Ideal) m' ρ')
  obtain ⟨h0, -, h2, h3, -, -, h6, h7, h8, h9⟩ := hagree c
  refine ⟨(h c).1.trans ?_, (h c).2.1.trans ?_, (h c).2.2⟩
  · rw [Cert.ReferenceIdeal.Read.val_main_v36_eq, Cert.ReferenceIdeal.RowValue.mean_eq, h0, h2, h6, h7, h8, h9]
  · rw [Cert.ReferenceIdeal.Read.val_main_v54_eq, Cert.ReferenceIdeal.RowValue.dists_eq, h0, h3, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
